-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x224x224 : Shape := ⟨4, ![8, 128, 224, 224]⟩
abbrev S_ : Shape := ⟨0, ![]⟩

class Facts : Prop where
  bcast_S_S8x128x224x224 : S_.BroadcastsInDim S8x128x224x224 (![] : Fin 0 → Fin S8x128x224x224.rank)
  reducesTo_S8x128x224x224_S_d0_1_2_3 : S8x128x224x224.ReducesTo [0, 1, 2, 3] S_
  h_S_ : 0 < S_.numel

variable [Facts]

def fn {F : FTy → Type} [FloatOps F] (main_arg0 : FVec F S8x128x224x224 .f32) : IVec S_ 1 :=
  let main_v0 : FVec F S8x128x224x224 .f32 := Host.absf main_arg0
  let main_cst : FVec F S_ .f32 := constant S_ .f32 0x7F800000#32
  let main_v1 : FVec F S8x128x224x224 .f32 := broadcastInDim S8x128x224x224 ![] bcast_S_S8x128x224x224 main_cst
  let main_v2 : IVec S8x128x224x224 1 := cmpf .olt main_v0 main_v1
  let main_c : IVec S_ 1 := constantI S_ 1 1#1
  let main_v3 : IVec S_ 1 := (fun x v => Host.reduce IntOp.andi x v reducesTo_S8x128x224x224_S_d0_1_2_3 h_S_) main_v2 main_c
  main_v3
-- ==== Kernel.lean ====
abbrev S8x128x224x224 : Shape := ⟨4, ![8, 128, 224, 224]⟩
abbrev S8x8x222x222 : Shape := ⟨4, ![8, 8, 222, 222]⟩
abbrev S1x16x224x224 : Shape := ⟨4, ![1, 16, 224, 224]⟩
abbrev S1x8x222x222 : Shape := ⟨4, ![1, 8, 222, 222]⟩
abbrev S8x222x222 : Shape := ⟨3, ![8, 222, 222]⟩
abbrev S16x224x224 : Shape := ⟨3, ![16, 224, 224]⟩
abbrev S16x222x222 : Shape := ⟨3, ![16, 222, 222]⟩
abbrev S222x222 : Shape := ⟨2, ![222, 222]⟩
abbrev S1x222x222 : Shape := ⟨3, ![1, 222, 222]⟩

abbrev nBuf : Space → Nat
  | .hbm => 2
  | .vmem => 4
  | .smem => 0
  | _ => 0

abbrev bufTy : (tb : Table) → Fin (tcTables nBuf tb) → BufTy
  | .hbm, ⟨0, _⟩ => ⟨S8x128x224x224, .f32⟩
  | .hbm, ⟨1, _⟩ => ⟨S8x8x222x222, .f32⟩
  | .local _ .vmem, ⟨0, _⟩ => ⟨S1x16x224x224, .f32⟩
  | .local _ .vmem, ⟨1, _⟩ => ⟨S1x16x224x224, .f32⟩
  | .local _ .vmem, ⟨2, _⟩ => ⟨S1x8x222x222, .f32⟩
  | .local _ .vmem, ⟨3, _⟩ => ⟨S1x8x222x222, .f32⟩
  | _, _ => ⟨S8x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x222x222 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x8x222x222_S1x8x222x222_0_0_0_0 : ∀ a, (![0, 0, 0, 0] : Fin 4 → Nat) a + S1x8x222x222.size a ≤ S1x8x222x222.size a
  h_S1x8x222x222 : 0 < S1x8x222x222.numel
  shapeCasts_S1x8x222x222_S8x222x222 : S1x8x222x222.ShapeCasts S8x222x222
  shapeCasts_S8x222x222_S1x8x222x222 : S8x222x222.ShapeCasts S1x8x222x222
  inb_S1x16x224x224_S1x16x224x224_0_0_0_0 : ∀ a, (![0, 0, 0, 0] : Fin 4 → Nat) a + S1x16x224x224.size a ≤ S1x16x224x224.size a
  h_S1x16x224x224 : 0 < S1x16x224x224.numel
  shapeCasts_S1x16x224x224_S16x224x224 : S1x16x224x224.ShapeCasts S16x224x224
  slices_S16x224x224_o0_1_1_S16x222x222 : S16x224x224.Slices ![0, 1, 1] S16x222x222
  slices_S16x224x224_o0_0_0_S16x222x222 : S16x224x224.Slices ![0, 0, 0] S16x222x222
  reduces_S16x222x222_S222x222 : S16x222x222.Reduces [0] S222x222
  slices_S16x224x224_o0_0_1_S16x222x222 : S16x224x224.Slices ![0, 0, 1] S16x222x222
  slices_S16x224x224_o0_0_2_S16x222x222 : S16x224x224.Slices ![0, 0, 2] S16x222x222
  slices_S16x224x224_o0_1_0_S16x222x222 : S16x224x224.Slices ![0, 1, 0] S16x222x222
  slices_S16x224x224_o0_1_2_S16x222x222 : S16x224x224.Slices ![0, 1, 2] S16x222x222
  slices_S16x224x224_o0_2_0_S16x222x222 : S16x224x224.Slices ![0, 2, 0] S16x222x222
  slices_S16x224x224_o0_2_1_S16x222x222 : S16x224x224.Slices ![0, 2, 1] S16x222x222
  slices_S16x224x224_o0_2_2_S16x222x222 : S16x224x224.Slices ![0, 2, 2] S16x222x222
  shapeCasts_S222x222_S1x222x222 : S222x222.ShapeCasts S1x222x222
  concatenates_S1x222x222_S1x222x222_S1x222x222_S1x222x222_S1x222x222_S1x222x222_S1x222x222_S1x222x222_S8x222x222_d0 : Shape.Concatenates [S1x222x222, S1x222x222, S1x222x222, S1x222x222, S1x222x222, S1x222x222, S1x222x222, S1x222x222] S8x222x222 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x224x224.size a ≤ S8x128x224x224.size a
  hwx0_0 : ∀ i : grid0.Coords, EltTy.bits .f32 = 32 ∨ (Rect.block (s := S8x128x224x224) S1x16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x222x222.size a ≤ S8x8x222x222.size a
  hwx0_1 : ∀ i : grid0.Coords, EltTy.bits .f32 = 32 ∨ (Rect.block (s := S8x8x222x222) S1x8x222x222.size (cc0_transform_1 i) (hinb0_1 i)).WholeWords (EltTy.packing .f32)

variable [Facts₀]

abbrev win0_0 : Pipeline.Window sig grid0 :=
  Pipeline.Window.ofSpec (Memref.whole main_arg0) S1x16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x222x222.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x224x224 : Shape := ⟨4, ![8, 128, 224, 224]⟩
abbrev S8x128x222x222 : Shape := ⟨4, ![8, 128, 222, 222]⟩
abbrev S_ : Shape := ⟨0, ![]⟩
abbrev S8x222x222 : Shape := ⟨3, ![8, 222, 222]⟩
abbrev S8x1x222x222 : Shape := ⟨4, ![8, 1, 222, 222]⟩
abbrev S8x8x222x222 : Shape := ⟨4, ![8, 8, 222, 222]⟩

abbrev nBuf : Space → Nat
  | .hbm => 52
  | .vmem => 0
  | .smem => 0
  | _ => 0

abbrev bufTy : (tb : Table) → Fin (tcTables nBuf tb) → BufTy
  | .hbm, ⟨0, _⟩ => ⟨S8x128x224x224, .f32⟩
  | .hbm, ⟨1, _⟩ => ⟨S8x128x222x222, .f32⟩
  | .hbm, ⟨2, _⟩ => ⟨S8x128x222x222, .f32⟩
  | .hbm, ⟨3, _⟩ => ⟨S8x128x222x222, .f32⟩
  | .hbm, ⟨4, _⟩ => ⟨S8x128x222x222, .f32⟩
  | .hbm, ⟨5, _⟩ => ⟨S_, .f32⟩
  | .hbm, ⟨6, _⟩ => ⟨S8x222x222, .f32⟩
  | .hbm, ⟨7, _⟩ => ⟨S8x128x222x222, .f32⟩
  | .hbm, ⟨8, _⟩ => ⟨S8x128x222x222, .f32⟩
  | .hbm, ⟨9, _⟩ => ⟨S8x128x222x222, .f32⟩
  | .hbm, ⟨10, _⟩ => ⟨S_, .f32⟩
  | .hbm, ⟨11, _⟩ => ⟨S8x222x222, .f32⟩
  | .hbm, ⟨12, _⟩ => ⟨S8x128x222x222, .f32⟩
  | .hbm, ⟨13, _⟩ => ⟨S8x128x222x222, .f32⟩
  | .hbm, ⟨14, _⟩ => ⟨S8x128x222x222, .f32⟩
  | .hbm, ⟨15, _⟩ => ⟨S_, .f32⟩
  | .hbm, ⟨16, _⟩ => ⟨S8x222x222, .f32⟩
  | .hbm, ⟨17, _⟩ => ⟨S8x128x222x222, .f32⟩
  | .hbm, ⟨18, _⟩ => ⟨S8x128x222x222, .f32⟩
  | .hbm, ⟨19, _⟩ => ⟨S8x128x222x222, .f32⟩
  | .hbm, ⟨20, _⟩ => ⟨S_, .f32⟩
  | .hbm, ⟨21, _⟩ => ⟨S8x222x222, .f32⟩
  | .hbm, ⟨22, _⟩ => ⟨S8x128x222x222, .f32⟩
  | .hbm, ⟨23, _⟩ => ⟨S8x128x222x222, .f32⟩
  | .hbm, ⟨24, _⟩ => ⟨S8x128x222x222, .f32⟩
  | .hbm, ⟨25, _⟩ => ⟨S_, .f32⟩
  | .hbm, ⟨26, _⟩ => ⟨S8x222x222, .f32⟩
  | .hbm, ⟨27, _⟩ => ⟨S8x128x222x222, .f32⟩
  | .hbm, ⟨28, _⟩ => ⟨S8x128x222x222, .f32⟩
  | .hbm, ⟨29, _⟩ => ⟨S8x128x222x222, .f32⟩
  | .hbm, ⟨30, _⟩ => ⟨S_, .f32⟩
  | .hbm, ⟨31, _⟩ => ⟨S8x222x222, .f32⟩
  | .hbm, ⟨32, _⟩ => ⟨S8x128x222x222, .f32⟩
  | .hbm, ⟨33, _⟩ => ⟨S8x128x222x222, .f32⟩
  | .hbm, ⟨34, _⟩ => ⟨S8x128x222x222, .f32⟩
  | .hbm, ⟨35, _⟩ => ⟨S_, .f32⟩
  | .hbm, ⟨36, _⟩ => ⟨S8x222x222, .f32⟩
  | .hbm, ⟨37, _⟩ => ⟨S8x128x222x222, .f32⟩
  | .hbm, ⟨38, _⟩ => ⟨S8x128x222x222, .f32⟩
  | .hbm, ⟨39, _⟩ => ⟨S8x128x222x222, .f32⟩
  | .hbm, ⟨40, _⟩ => ⟨S_, .f32⟩
  | .hbm, ⟨41, _⟩ => ⟨S8x222x222, .f32⟩
  | .hbm, ⟨42, _⟩ => ⟨S8x1x222x222, .f32⟩
  | .hbm, ⟨43, _⟩ => ⟨S8x1x222x222, .f32⟩
  | .hbm, ⟨44, _⟩ => ⟨S8x1x222x222, .f32⟩
  | .hbm, ⟨45, _⟩ => ⟨S8x1x222x222, .f32⟩
  | .hbm, ⟨46, _⟩ => ⟨S8x1x222x222, .f32⟩
  | .hbm, ⟨47, _⟩ => ⟨S8x1x222x222, .f32⟩
  | .hbm, ⟨48, _⟩ => ⟨S8x1x222x222, .f32⟩
  | .hbm, ⟨49, _⟩ => ⟨S8x1x222x222, .f32⟩
  | .hbm, ⟨50, _⟩ => ⟨S8x8x222x222, .f32⟩
  | .hbm, ⟨51, _⟩ => ⟨S8x8x222x222, .f32⟩
  | _, _ => ⟨S8x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]

class Facts₀ : Prop where
  slices_S8x128x224x224_S8x128x222x222_0_0_1_1 : S8x128x224x224.Slices ![0, 0, 1, 1] S8x128x222x222
  slices_S8x128x224x224_S8x128x222x222_0_0_0_0 : S8x128x224x224.Slices ![0, 0, 0, 0] S8x128x222x222
  reducesTo_S8x128x222x222_S8x222x222_d1 : S8x128x222x222.ReducesTo [1] S8x222x222
  h_S_ : 0 < S_.numel
  slices_S8x128x224x224_S8x128x222x222_0_0_0_1 : S8x128x224x224.Slices ![0, 0, 0, 1] S8x128x222x222
  slices_S8x128x224x224_S8x128x222x222_0_0_0_2 : S8x128x224x224.Slices ![0, 0, 0, 2] S8x128x222x222
  slices_S8x128x224x224_S8x128x222x222_0_0_1_0 : S8x128x224x224.Slices ![0, 0, 1, 0] S8x128x222x222
  slices_S8x128x224x224_S8x128x222x222_0_0_1_2 : S8x128x224x224.Slices ![0, 0, 1, 2] S8x128x222x222
  slices_S8x128x224x224_S8x128x222x222_0_0_2_0 : S8x128x224x224.Slices ![0, 0, 2, 0] S8x128x222x222
  slices_S8x128x224x224_S8x128x222x222_0_0_2_1 : S8x128x224x224.Slices ![0, 0, 2, 1] S8x128x222x222
  slices_S8x128x224x224_S8x128x222x222_0_0_2_2 : S8x128x224x224.Slices ![0, 0, 2, 2] S8x128x222x222
  bcast_S8x222x222_S8x1x222x222_0_2_3 : S8x222x222.BroadcastsInDim S8x1x222x222 (![0, 2, 3] : Fin 3 → Fin S8x1x222x222.rank)
  concatenates_S8x1x222x222_S8x1x222x222_S8x1x222x222_S8x1x222x222_S8x1x222x222_S8x1x222x222_S8x1x222x222_S8x1x222x222_S8x8x222x222_d1 : Shape.Concatenates [S8x1x222x222, S8x1x222x222, S8x1x222x222, S8x1x222x222, S8x1x222x222, S8x1x222x222, S8x1x222x222, S8x1x222x222] S8x8x222x222 1

variable [Facts₀]

class Facts : Prop extends Facts₀ where

variable [Facts]
-- ==== Proof.Neighbours.lean ====
/-
  The function both programs compute, and the one law of sums that joins their two arrangements.

  For an image batch `x : [8, 128, 224, 224]` and an output position `(b, o, p, q) : [8, 8, 222, 222]`, neighbour `o` of
  the 3×3 window (row-major, the centre left out) sits at offset `(nbrRow o, nbrCol o)`; the centre at `(1, 1)`. The result is

      pool x (b, o, p, q) = −( Σ_{c < 128} | x(b, c, 1 + p, 1 + q) − x(b, c, nbrRow o + p, nbrCol o + q) | ),

  the absolute value spelt `max d (−d)` on the extended reals. The kernel adds the 128 channels up as 8 tiles of 16; the
  reference in one sum. Addition on the extended reals is commutative and associative, so the two agree with no finiteness.
-/
import Idealize.ShloMosaic.Lib.ValueIdx
import Idealize.ShloMosaic.PureOps.Ideal.Laws

noncomputable section

namespace Cert.Pool

open Idealize.ShloMosaic Idealize.ShloMosaic.ValueIdx

/-- Row offset of neighbour `o` inside the 3×3 window. -/
def nbrRow (o : Fin 8) : Nat := ![0, 0, 0, 1, 1, 2, 2, 2] o

/-- Column offset of neighbour `o` inside the 3×3 window. -/
def nbrCol (o : Fin 8) : Nat := ![0, 1, 2, 0, 2, 0, 1, 2] o

theorem nbrRow_le : ∀ o : Fin 8, nbrRow o ≤ 2 := by decide

theorem nbrCol_le : ∀ o : Fin 8, nbrCol o ≤ 2 := by decide

/-- `|a − b|` on the extended reals, in the spelling both programs use. -/
def dist (a b : EReal) : EReal := max (a - b) (-(a - b))

/-- One channel's contribution at pixel `(p, q)`: the distance of the window's centre from the pixel at offset `(di, dj)`. -/
def term (x : (⟨4, ![8, 128, 224, 224]⟩ : Shape).Idx → EReal) (b : Fin 8) (c : Fin 128) (p q : Fin 222) (di dj : Nat)
    (hi : di ≤ 2) (hj : dj ≤ 2) : EReal :=
  dist (x (ix4 b c ⟨1 + p.val, by omega⟩ ⟨1 + q.val, by omega⟩)) (x (ix4 b c ⟨di + p.val, by omega⟩ ⟨dj + q.val, by omega⟩))

/-- The result at coordinates `(b, o, p, q)`. -/
def poolAt (x : (⟨4, ![8, 128, 224, 224]⟩ : Shape).Idx → EReal) (b o : Fin 8) (p q : Fin 222) : EReal :=
  -(∑ c : Fin 128, term x b c p q (nbrRow o) (nbrCol o) (nbrRow_le o) (nbrCol_le o))

/-- The result array. -/
def pool (x : (⟨4, ![8, 128, 224, 224]⟩ : Shape).Idx → EReal) : (⟨4, ![8, 8, 222, 222]⟩ : Shape).Idx → EReal :=
  fun i => poolAt x (i 0) (i 1) (i 2) (i 3)

/-- A sum over 128 channels is the sum over 8 tiles of the sums over each tile's 16 channels. -/
theorem sum_tiles {M : Type*} [AddCommMonoid M] (f : Fin 128 → M) :
    ∑ c : Fin 128, f c = ∑ k : Fin 8, ∑ j : Fin 16, f ⟨16 * k.val + j.val, by omega⟩ := by
  rw [← Fintype.sum_prod_type' (f := fun (k : Fin 8) (j : Fin 16) => f ⟨16 * k.val + j.val, by omega⟩)]
  refine (Fintype.sum_equiv (finProdFinEquiv.trans (finCongr (by norm_num : 8 * 16 = 128))) _ _ fun kj => ?_).symm
  refine congrArg f (Fin.ext ?_)
  show 16 * kj.1.val + kj.2.val = kj.2.val + 16 * kj.1.val
  omega

/-- What the kernel's arrangement amounts to: zero, minus the tile sums added one after another onto a zero, is the result. -/
theorem zero_sub_tiles (x : (⟨4, ![8, 128, 224, 224]⟩ : Shape).Idx → EReal) (b o : Fin 8) (p q : Fin 222) :
    (0 : EReal) - (0 + ∑ k : Fin 8, ∑ j : Fin 16, term x b ⟨16 * k.val + j.val, by omega⟩ p q (nbrRow o) (nbrCol o) (nbrRow_le o) (nbrCol_le o)) = poolAt x b o p q := by
  unfold poolAt
  rw [sum_tiles (fun c => term x b c p q (nbrRow o) (nbrCol o) (nbrRow_le o) (nbrCol_le o)), zero_add, sub_eq_add_neg, zero_add]

end Cert.Pool

end
-- ==== Proof.RefSide.lean ====
/-
  The reference's result is `pool` of its argument.

  The reference cuts the centre plane and each of the eight neighbour planes out of the image batch, takes the absolute
  difference, sums it over the channel axis (an initial zero plus the sum over the 128 channels), lays the eight sums
  side by side along a new axis of extent 8, and negates. Each stage is read at an index through the generated stage
  lemmas; what is done here is to identify the composed index maps with the coordinates `(b, c, 1 + p, 1 + q)` and
  `(b, c, di + p, dj + q)`, and to pick the piece of the stack that the neighbour coordinate names.
-/
import proofs.«131874_j63986422776070_1_alg».proof.Proof.Gen.ReferenceIdeal.Read
import proofs.«131874_j63986422776070_1_alg».proof.Proof.Neighbours
import Idealize.ShloMosaic.Lib.ValueIdx
import Idealize.ShloMosaic.Lib.Pipeline.Value
import Idealize.ShloMosaic.PureOps.Ideal.Laws

noncomputable section

namespace Cert.ReferenceIdeal.PoolValue

open Cert.ReferenceIdeal Cert.ReferenceIdeal.Gen Cert.ReferenceIdeal.Read Cert.Pool
open Idealize.ShloMosaic Idealize.ShloMosaic.ValueIdx

/-- One neighbour's plane of the stack, read at `(b, ·, p, q)`: the stage lemmas unfold it to the initial zero plus the
    sum over the channels of `|centre − neighbour|`; the two composed index maps are the coordinates `term` is written
    with, axis by axis. -/
local macro "read_neighbour" x:term "," bc:ident "," red:ident "," ab:ident "," sb:ident "," sl:ident : tactic => `(tactic| (
  rw [$bc:ident, $red:ident]
  refine (congrArg₂ (· + ·) Ideal.ofBits_zero_f32 (Finset.sum_congr rfl fun c _ => ?_)).trans (zero_add _)
  rw [$ab:ident, $sb:ident, val_main_v0_apply, $sl:ident]
  refine congrArg₂ (fun u v : EReal => max (u - v) (-(u - v))) (congrArg $x (funext fun a => Fin.ext ?_)) (congrArg $x (funext fun a => Fin.ext ?_))
  all_goals (match a with
    | ⟨0, _⟩ => rfl
    | ⟨1, _⟩ => rfl
    | ⟨2, _⟩ => first | rfl | exact (Nat.zero_add _).symm
    | ⟨3, _⟩ => first | rfl | exact (Nat.zero_add _).symm)))

variable (x : (⟨S8x128x224x224, .f32⟩ : BufTy).Contents (Elt Ideal))

/-- Neighbour 0 (offset (0, 0)). -/
theorem neighbour0 (b : Fin 8) (u : Fin 1) (p q : Fin 222) :
    val_main_v33 (F := Ideal) x (ix4 b u p q) = ∑ c : Fin 128, term x b c p q 0 0 (by omega) (by omega) := by
  read_neighbour x, val_main_v33_apply, val_main_v4_apply, val_main_v3_apply, val_main_v2_apply, val_main_v1_apply

/-- Neighbour 1 (offset (0, 1)). -/
theorem neighbour1 (b : Fin 8) (u : Fin 1) (p q : Fin 222) :
    val_main_v34 (F := Ideal) x (ix4 b u p q) = ∑ c : Fin 128, term x b c p q 0 1 (by omega) (by omega) := by
  read_neighbour x, val_main_v34_apply, val_main_v8_apply, val_main_v7_apply, val_main_v6_apply, val_main_v5_apply

/-- Neighbour 2 (offset (0, 2)). -/
theorem neighbour2 (b : Fin 8) (u : Fin 1) (p q : Fin 222) :
    val_main_v35 (F := Ideal) x (ix4 b u p q) = ∑ c : Fin 128, term x b c p q 0 2 (by omega) (by omega) := by
  read_neighbour x, val_main_v35_apply, val_main_v12_apply, val_main_v11_apply, val_main_v10_apply, val_main_v9_apply

/-- Neighbour 3 (offset (1, 0)). -/
theorem neighbour3 (b : Fin 8) (u : Fin 1) (p q : Fin 222) :
    val_main_v36 (F := Ideal) x (ix4 b u p q) = ∑ c : Fin 128, term x b c p q 1 0 (by omega) (by omega) := by
  read_neighbour x, val_main_v36_apply, val_main_v16_apply, val_main_v15_apply, val_main_v14_apply, val_main_v13_apply

/-- Neighbour 4 (offset (1, 2)). -/
theorem neighbour4 (b : Fin 8) (u : Fin 1) (p q : Fin 222) :
    val_main_v37 (F := Ideal) x (ix4 b u p q) = ∑ c : Fin 128, term x b c p q 1 2 (by omega) (by omega) := by
  read_neighbour x, val_main_v37_apply, val_main_v20_apply, val_main_v19_apply, val_main_v18_apply, val_main_v17_apply

/-- Neighbour 5 (offset (2, 0)). -/
theorem neighbour5 (b : Fin 8) (u : Fin 1) (p q : Fin 222) :
    val_main_v38 (F := Ideal) x (ix4 b u p q) = ∑ c : Fin 128, term x b c p q 2 0 (by omega) (by omega) := by
  read_neighbour x, val_main_v38_apply, val_main_v24_apply, val_main_v23_apply, val_main_v22_apply, val_main_v21_apply

/-- Neighbour 6 (offset (2, 1)). -/
theorem neighbour6 (b : Fin 8) (u : Fin 1) (p q : Fin 222) :
    val_main_v39 (F := Ideal) x (ix4 b u p q) = ∑ c : Fin 128, term x b c p q 2 1 (by omega) (by omega) := by
  read_neighbour x, val_main_v39_apply, val_main_v28_apply, val_main_v27_apply, val_main_v26_apply, val_main_v25_apply

/-- Neighbour 7 (offset (2, 2)). -/
theorem neighbour7 (b : Fin 8) (u : Fin 1) (p q : Fin 222) :
    val_main_v40 (F := Ideal) x (ix4 b u p q) = ∑ c : Fin 128, term x b c p q 2 2 (by omega) (by omega) := by
  read_neighbour x, val_main_v40_apply, val_main_v32_apply, val_main_v31_apply, val_main_v30_apply, val_main_v29_apply

/-- The stack of the eight planes, read at `(b, o, p, q)`, is plane `o` at `(b, 0, p, q)`; negated, it is the result. -/
theorem ref_eq_pool : val_main_v42 (F := Ideal) x = pool x := by
  funext i
  obtain ⟨b, o, p, q, rfl⟩ : ∃ (b o : Fin 8) (p q : Fin 222), i = ix4 b o p q := ⟨i 0, i 1, i 2, i 3, eq_ix4 i⟩
  show -(val_main_v41 (F := Ideal) x (ix4 b o p q)) = -(∑ c : Fin 128, term x b c p q (nbrRow o) (nbrCol o) (nbrRow_le o) (nbrCol_le o))
  refine congrArg Neg.neg ?_
  unfold val_main_v41
  refine (concatenate_ofFn_unit_apply (t := S8x8x222x222) (s₁ := S8x1x222x222) (1 : Fin 4)
    ![val_main_v33 (F := Ideal) x, val_main_v34 (F := Ideal) x, val_main_v35 (F := Ideal) x, val_main_v36 (F := Ideal) x,
      val_main_v37 (F := Ideal) x, val_main_v38 (F := Ideal) x, val_main_v39 (F := Ideal) x, val_main_v40 (F := Ideal) x]
    concatenates_S8x1x222x222_S8x1x222x222_S8x1x222x222_S8x1x222x222_S8x1x222x222_S8x1x222x222_S8x1x222x222_S8x1x222x222_S8x8x222x222_d1
    rfl rfl (ix4 b o p q) o rfl (ix4 b (0 : Fin 1) p q)
    (fun a ha => by
      match a with
      | ⟨0, _⟩ => rfl
      | ⟨1, _⟩ => exact absurd rfl ha
      | ⟨2, _⟩ => rfl
      | ⟨3, _⟩ => rfl)).trans ?_
  match o with
  | ⟨0, _⟩ => exact neighbour0 x b 0 p q
  | ⟨1, _⟩ => exact neighbour1 x b 0 p q
  | ⟨2, _⟩ => exact neighbour2 x b 0 p q
  | ⟨3, _⟩ => exact neighbour3 x b 0 p q
  | ⟨4, _⟩ => exact neighbour4 x b 0 p q
  | ⟨5, _⟩ => exact neighbour5 x b 0 p q
  | ⟨6, _⟩ => exact neighbour6 x b 0 p q
  | ⟨7, _⟩ => exact neighbour7 x b 0 p q

end Cert.ReferenceIdeal.PoolValue

end
-- ==== Proof.Tile.lean ====
/-
  What one grid point adds to the resident output block.

  A grid point `(b, t)` sees the tile `x0 : [1, 16, 224, 224]` of sixteen channels. For neighbour `o` the body forms
  `|centre − neighbour|` on the tile, sums it over the tile's sixteen channels, stacks the eight sums along a new axis and
  adds the stack onto the block it reads back. Read at `(·, o, p, q)` the stored value is therefore

      acc(0, o, p, q) + Σ_{k < 16} | x0(0, k, 1 + p, 1 + q) − x0(0, k, nbrRow o + p, nbrCol o + q) |.

  The first point of a run stores zeros first, the last point stores `0 − block` at the end.
-/
import proofs.«131874_j63986422776070_1_alg».proof.Proof.Gen.KernelIdeal.Skeleton
import proofs.«131874_j63986422776070_1_alg».proof.Proof.Neighbours
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Pool
open Idealize.ShloMosaic Idealize.ShloMosaic.ValueIdx

/-- The tile's sum for the neighbour at offset `(di, dj)`, at pixel `(p, q)`. -/
def tileAt (x0 : Vec Ideal S1x16x224x224 .f32) (di dj : Nat) (p q : Fin 222) (hi : di ≤ 2) (hj : dj ≤ 2) : EReal :=
  ∑ k : Fin 16, dist (x0 (ix4 (0 : Fin 1) k ⟨1 + p.val, by omega⟩ ⟨1 + q.val, by omega⟩))
    (x0 (ix4 (0 : Fin 1) k ⟨di + p.val, by omega⟩ ⟨dj + q.val, by omega⟩))

/-- The channel sum of `|centre − neighbour|` over the tile with its unit axis dropped: the lane sum is the sum over the
    sixteen channels, each of the two planes is the tile read at the plane's offset. -/
theorem reduce_abs_sub (x0 : Vec Ideal S1x16x224x224 .f32) (di dj : Nat) (hi : di ≤ 2) (hj : dj ≤ 2)
    (h : S16x224x224.Slices ![0, di, dj] S16x222x222) (p q : Fin 222) :
    multiReduction (F := Ideal) .add [0] S222x222
        (absf (subf (k0_pay5 (F := Ideal) x0) (extractStridedSlice S16x222x222 ![0, di, dj] (k0_pay4 (F := Ideal) x0) h)))
        0x00000000#32 reduces_S16x222x222_S222x222 (.inl rfl) rfl (ix2 p q)
      = tileAt x0 di dj p q hi hj := by
  refine (Ideal.multiReduction_add_single _ 0x00000000#32 reduces_S16x222x222_S222x222 (.inl rfl) rfl (ix2 p q)).trans ?_
  refine Finset.sum_congr rfl fun k _ => ?_
  refine congrArg₂ (fun u v : EReal => max (u - v) (-(u - v))) ?_ ?_
  · unfold k0_pay5 k0_pay4
    refine (extractStridedSlice_apply ![0, 1, 1] _ slices_S16x224x224_o0_1_1_S16x222x222 _
      (ix3 k ⟨1 + p.val, by omega⟩ ⟨1 + q.val, by omega⟩) (fun a => ?_)).trans
      (shapeCast_1abc_abc_apply x0 shapeCasts_S1x16x224x224_S16x224x224 k _ _)
    match a with
    | ⟨0, _⟩ => exact (Nat.zero_add _).symm
    | ⟨1, _⟩ => rfl
    | ⟨2, _⟩ => rfl
  · unfold k0_pay4
    refine (extractStridedSlice_apply ![0, di, dj] _ h _
      (ix3 k ⟨di + p.val, by omega⟩ ⟨dj + q.val, by omega⟩) (fun a => ?_)).trans
      (shapeCast_1abc_abc_apply x0 shapeCasts_S1x16x224x224_S16x224x224 k _ _)
    match a with
    | ⟨0, _⟩ => exact (Nat.zero_add _).symm
    | ⟨1, _⟩ => rfl
    | ⟨2, _⟩ => rfl

variable (x0 : Vec Ideal S1x16x224x224 .f32)

/-! The eight sums, each at its literal offset. Five of them come with the unit axis already added. -/

theorem sum00 (u : Fin 1) (p q : Fin 222) : k0_pay9 (F := Ideal) x0 (ix3 u p q) = tileAt x0 0 0 p q (by omega) (by omega) := by
  unfold k0_pay9
  exact (shapeCast_ab_1ab_apply _ shapeCasts_S222x222_S1x222x222 u p q).trans (reduce_abs_sub x0 0 0 _ _ _ p q)

theorem sum01 (u : Fin 1) (p q : Fin 222) : k0_pay10 (F := Ideal) x0 (ix3 u p q) = tileAt x0 0 1 p q (by omega) (by omega) := by
  unfold k0_pay10
  exact (shapeCast_ab_1ab_apply _ shapeCasts_S222x222_S1x222x222 u p q).trans (reduce_abs_sub x0 0 1 _ _ _ p q)

theorem sum02 (u : Fin 1) (p q : Fin 222) : k0_pay11 (F := Ideal) x0 (ix3 u p q) = tileAt x0 0 2 p q (by omega) (by omega) := by
  unfold k0_pay11
  exact (shapeCast_ab_1ab_apply _ shapeCasts_S222x222_S1x222x222 u p q).trans (reduce_abs_sub x0 0 2 _ _ _ p q)

theorem sum10 (u : Fin 1) (p q : Fin 222) : k0_pay12 (F := Ideal) x0 (ix3 u p q) = tileAt x0 1 0 p q (by omega) (by omega) := by
  unfold k0_pay12
  exact (shapeCast_ab_1ab_apply _ shapeCasts_S222x222_S1x222x222 u p q).trans (reduce_abs_sub x0 1 0 _ _ _ p q)

theorem sum12 (u : Fin 1) (p q : Fin 222) : k0_pay13 (F := Ideal) x0 (ix3 u p q) = tileAt x0 1 2 p q (by omega) (by omega) := by
  unfold k0_pay13
  exact (shapeCast_ab_1ab_apply _ shapeCasts_S222x222_S1x222x222 u p q).trans (reduce_abs_sub x0 1 2 _ _ _ p q)

theorem sum20 (p q : Fin 222) : k0_pay6 (F := Ideal) x0 (ix2 p q) = tileAt x0 2 0 p q (by omega) (by omega) := by
  unfold k0_pay6
  exact reduce_abs_sub x0 2 0 _ _ _ p q

theorem sum21 (p q : Fin 222) : k0_pay7 (F := Ideal) x0 (ix2 p q) = tileAt x0 2 1 p q (by omega) (by omega) := by
  unfold k0_pay7
  exact reduce_abs_sub x0 2 1 _ _ _ p q

theorem sum22 (p q : Fin 222) : k0_pay8 (F := Ideal) x0 (ix2 p q) = tileAt x0 2 2 p q (by omega) (by omega) := by
  unfold k0_pay8
  exact reduce_abs_sub x0 2 2 _ _ _ p q

/-- The stored block at `(u, o, p, q)`: what was read back there plus the tile's sum for neighbour `o` (the stack of the
    eight sums read at `(o, p, q)` is piece `o` at `(0, p, q)`). -/
theorem add_tile (acc : Vec Ideal S1x8x222x222 .f32) (u : Fin 1) (o : Fin 8) (p q : Fin 222) :
    k0_pay1 (F := Ideal) (k0_pay6 x0) (k0_pay7 x0) (k0_pay8 x0) (k0_pay9 x0) (k0_pay10 x0) (k0_pay11 x0) (k0_pay12 x0) (k0_pay13 x0) acc (ix4 u o p q)
      = acc (ix4 (0 : Fin 1) o p q) + tileAt x0 (nbrRow o) (nbrCol o) p q (nbrRow_le o) (nbrCol_le o) := by
  unfold k0_pay1
  refine (shapeCast_abc_1abc_apply _ shapeCasts_S8x222x222_S1x8x222x222 u o p q).trans ?_
  refine congrArg₂ (· + ·) (shapeCast_1abc_abc_apply acc shapeCasts_S1x8x222x222_S8x222x222 o p q) ?_
  refine (concatenate_ofFn_unit_apply (t := S8x222x222) (s₁ := S1x222x222) (0 : Fin 3)
    ![k0_pay9 (F := Ideal) x0, k0_pay10 (F := Ideal) x0, k0_pay11 (F := Ideal) x0, k0_pay12 (F := Ideal) x0, k0_pay13 (F := Ideal) x0,
      shapeCast S1x222x222 (k0_pay6 (F := Ideal) x0) shapeCasts_S222x222_S1x222x222,
      shapeCast S1x222x222 (k0_pay7 (F := Ideal) x0) shapeCasts_S222x222_S1x222x222,
      shapeCast S1x222x222 (k0_pay8 (F := Ideal) x0) shapeCasts_S222x222_S1x222x222]
    concatenates_S1x222x222_S1x222x222_S1x222x222_S1x222x222_S1x222x222_S1x222x222_S1x222x222_S1x222x222_S8x222x222_d0
    rfl rfl (ix3 o p q) o rfl (ix3 (0 : Fin 1) p q)
    (fun a ha => by
      match a with
      | ⟨0, _⟩ => exact absurd rfl ha
      | ⟨1, _⟩ => rfl
      | ⟨2, _⟩ => rfl)).trans ?_
  match o with
  | ⟨0, _⟩ => exact sum00 x0 0 p q
  | ⟨1, _⟩ => exact sum01 x0 0 p q
  | ⟨2, _⟩ => exact sum02 x0 0 p q
  | ⟨3, _⟩ => exact sum10 x0 0 p q
  | ⟨4, _⟩ => exact sum12 x0 0 p q
  | ⟨5, _⟩ => exact (shapeCast_ab_1ab_apply _ shapeCasts_S222x222_S1x222x222 0 p q).trans (sum20 x0 p q)
  | ⟨6, _⟩ => exact (shapeCast_ab_1ab_apply _ shapeCasts_S222x222_S1x222x222 0 p q).trans (sum21 x0 p q)
  | ⟨7, _⟩ => exact (shapeCast_ab_1ab_apply _ shapeCasts_S222x222_S1x222x222 0 p q).trans (sum22 x0 p q)

/-- The block of zeros the first point of a run stores. -/
theorem zeros (u : Fin 1) (o : Fin 8) (p q : Fin 222) : k0_pay3 (F := Ideal) (ix4 u o p q) = 0 := by
  unfold k0_pay3
  exact (shapeCast_abc_1abc_apply _ shapeCasts_S8x222x222_S1x8x222x222 u o p q).trans Ideal.ofBits_zero_f32

/-- The block the last point of a run stores: zero minus what it reads back. -/
theorem zero_sub (acc : Vec Ideal S1x8x222x222 .f32) (u : Fin 1) (o : Fin 8) (p q : Fin 222) :
    k0_pay2 (F := Ideal) acc (ix4 u o p q) = 0 - acc (ix4 (0 : Fin 1) o p q) := by
  unfold k0_pay2
  refine (shapeCast_abc_1abc_apply _ shapeCasts_S8x222x222_S1x8x222x222 u o p q).trans ?_
  exact congrArg₂ (· - ·) Ideal.ofBits_zero_f32 (shapeCast_1abc_abc_apply acc shapeCasts_S1x8x222x222_S8x222x222 o p q)

end Cert.KernelIdeal.Tile

end
-- ==== Proof.KernelSide.lean ====
/-
  The kernel's result array is `pool` of its argument.

  The output block of batch `r` stays resident over the run of eight grid points `8 r, …, 8 r + 7`; point `8 r + k` sees
  the tile of channels `16 k, …, 16 k + 15` of batch `r`. The run's fold starts from zeros, adds one tile's eight sums at
  each point, and at the last point replaces the block by zero minus it. So what is written back at `(r, o, p, q)` is

      0 − (0 + Σ_{k < 8} Σ_{j < 16} | x(r, 16 k + j, 1 + p, 1 + q) − x(r, 16 k + j, nbrRow o + p, nbrCol o + q) |),

  which is `pool x (r, o, p, q)` by regrouping the 128 channels into 8 tiles of 16.
-/
import proofs.«131874_j63986422776070_1_alg».proof.Proof.Gen.KernelIdeal.Value
import proofs.«131874_j63986422776070_1_alg».proof.Proof.Tile

noncomputable section

namespace Cert.KernelIdeal.PoolValue

open Cert.KernelIdeal Cert.KernelIdeal.Gen Cert.KernelIdeal.Value Cert.KernelIdeal.Tile Cert.Pool
open Idealize.ShloMosaic Idealize.ShloMosaic.TcCoe Idealize.ShloMosaic.ValueIdx Idealize.SL.Sem

variable (m : (ℓ : Loc nD τ sig) → Buf (Elt Ideal) ℓ)

/-- The image batch on core `c`. -/
abbrev img (c : Dev nD) : (⟨4, ![8, 128, 224, 224]⟩ : Shape).Idx → EReal := m ((c : Thread nD τ).loc main_arg0)

/-- The tile grid point `t` sees, at its literal type. -/
abbrev tileOf (c : Dev nD) (t : Fin cfg0.N) : Vec Ideal S1x16x224x224 .f32 := iblk m c 0 t

/-- The input window's index map over the grid: point `t` fetches batch `t / 8`, channel tile `t % 8`, the whole plane. -/
theorem tile_index : ∀ t : Fin cfg0.N, win0_0.index t (0 : Fin 4) = t.val / 8 ∧ win0_0.index t (1 : Fin 4) = t.val % 8
    ∧ win0_0.index t (2 : Fin 4) = 0 ∧ win0_0.index t (3 : Fin 4) = 0 :=
  (by decide +kernel : ∀ t : Fin grid0.N, _)

/-- The tile of point `8 r + k` at `(0, j, a, b)` is the image at `(r, 16 k + j, a, b)`. -/
theorem tile_read (c : Dev nD) (r k : Fin 8) (h : 8 * r.val + k.val < cfg0.N) (j : Fin 16) (a b : Fin 224) :
    tileOf m c ⟨8 * r.val + k.val, h⟩ (ix4 (0 : Fin 1) j a b) = img m c (ix4 r ⟨16 * k.val + j.val, by omega⟩ a b) := by
  obtain ⟨e0, e1, e2, e3⟩ := tile_index ⟨8 * r.val + k.val, h⟩
  have e0' : win0_0.index ⟨8 * r.val + k.val, h⟩ (0 : Fin 4) = (8 * r.val + k.val) / 8 := e0
  have e1' : win0_0.index ⟨8 * r.val + k.val, h⟩ (1 : Fin 4) = (8 * r.val + k.val) % 8 := e1
  show V m c (Pipeline.arrRef spec0 0) (((cfg0.win 0).blk ⟨8 * r.val + k.val, h⟩).view.emb (ix4 (0 : Fin 1) j a b)) = _
  refine congrArg (img m c) (funext fun ax => Fin.ext ?_)
  match ax with
  | ⟨0, _⟩ =>
    show win0_0.index ⟨8 * r.val + k.val, h⟩ (0 : Fin 4) * 1 + 1 * 0 = r.val
    rw [e0']; omega
  | ⟨1, _⟩ =>
    show win0_0.index ⟨8 * r.val + k.val, h⟩ (1 : Fin 4) * 16 + 1 * j.val = 16 * k.val + j.val
    rw [e1']; omega
  | ⟨2, _⟩ =>
    show win0_0.index ⟨8 * r.val + k.val, h⟩ (2 : Fin 4) * 224 + 1 * a.val = a.val
    rw [e2]; omega
  | ⟨3, _⟩ =>
    show win0_0.index ⟨8 * r.val + k.val, h⟩ (3 : Fin 4) * 224 + 1 * b.val = b.val
    rw [e3]; omega

/-- So that tile's sum for a neighbour is the sum of the image's terms over the tile's sixteen channels. -/
theorem tile_sum (c : Dev nD) (r k : Fin 8) (h : 8 * r.val + k.val < cfg0.N) (di dj : Nat) (p q : Fin 222) (hi : di ≤ 2) (hj : dj ≤ 2) :
    tileAt (tileOf m c ⟨8 * r.val + k.val, h⟩) di dj p q hi hj
      = ∑ j : Fin 16, term (img m c) r ⟨16 * k.val + j.val, by omega⟩ p q di dj hi hj := by
  unfold tileAt term
  exact Finset.sum_congr rfl fun j _ => congrArg₂ dist (tile_read m c r k h j _ _) (tile_read m c r k h j _ _)

/-- What point `n` adds at a block position (zero past the grid, where it is never used). -/
def addend (c : Dev nD) (n : ℕ) : S1x8x222x222.Idx → EReal := fun y =>
  if h : n < cfg0.N then tileAt (tileOf m c ⟨n, h⟩) (nbrRow (y 1)) (nbrCol (y 1)) (y 2) (y 3) (nbrRow_le _) (nbrCol_le _) else 0

/-- At the last point of a run the step adds the tile and then stores zero minus the block. -/
theorem last_step (c : Dev nD) (n : ℕ) (hn : n < cfg0.N) (h7 : n % 8 = 7) (acc : Vec Ideal S1x8x222x222 .f32) :
    step1 m c n hn acc = k0_pay2 (F := Ideal) (k0_pay1 (k0_pay6 (iblk m c 0 ⟨n, hn⟩)) (k0_pay7 (iblk m c 0 ⟨n, hn⟩)) (k0_pay8 (iblk m c 0 ⟨n, hn⟩))
      (k0_pay9 (iblk m c 0 ⟨n, hn⟩)) (k0_pay10 (iblk m c 0 ⟨n, hn⟩)) (k0_pay11 (iblk m c 0 ⟨n, hn⟩)) (k0_pay12 (iblk m c 0 ⟨n, hn⟩))
      (k0_pay13 (iblk m c 0 ⟨n, hn⟩)) acc) := by
  unfold step1
  rw [if_neg (by omega), if_pos ⟨by omega, h7⟩]

/-- THE RUN'S FOLD at batch `r`, read at `(u, o, p, q)`: the result there. Six steps after the reset add a tile each
    (the library's unrolled fold); the seventh adds the last tile and stores zero minus the block. -/
theorem fold_apply (c : Dev nD) (r : Fin 8) (h : 8 * r.val + 7 < cfg0.N) (u : Fin 1) (o : Fin 8) (p q : Fin 222) :
    Pipeline.accAt (reset1 m c) (step1 m c) (8 * r.val) 7 h (ix4 u o p q) = poolAt (img m c) r o p q := by
  have hN : cfg0.N = 64 := N_0
  -- the six adding steps
  have hsix := Pipeline.accAt_add_apply (reset1 m c) (step1 m c) (fun _ => (0 : EReal)) (addend m c) (8 * r.val) 6
    (fun hb y => by
      obtain ⟨u', o', p', q', rfl⟩ : ∃ (u' : Fin 1) (o' : Fin 8) (p' q' : Fin 222), y = ix4 u' o' p' q' := ⟨y 0, y 1, y 2, y 3, eq_ix4 y⟩
      have hu : u' = 0 := Fin.ext (by omega)
      subst hu
      show reset1 m c (8 * r.val) hb (ix4 (0 : Fin 1) o' p' q') = 0 + addend m c (8 * r.val) (ix4 (0 : Fin 1) o' p' q')
      unfold reset1 addend
      rw [dif_pos hb]
      exact (add_tile _ _ 0 o' p' q').trans (congrArg₂ (· + ·) (zeros 0 o' p' q') rfl))
    (fun n hn acc y h1 h2 => by
      obtain ⟨u', o', p', q', rfl⟩ : ∃ (u' : Fin 1) (o' : Fin 8) (p' q' : Fin 222), y = ix4 u' o' p' q' := ⟨y 0, y 1, y 2, y 3, eq_ix4 y⟩
      have hu : u' = 0 := Fin.ext (by omega)
      subst hu
      show step1 m c n hn acc (ix4 (0 : Fin 1) o' p' q') = acc (ix4 (0 : Fin 1) o' p' q') + addend m c n (ix4 (0 : Fin 1) o' p' q')
      unfold step1 addend
      rw [if_pos ⟨by omega, by omega⟩, dif_pos hn]
      exact add_tile _ acc 0 o' p' q')
    6 (Nat.le_refl 6) (by omega) (ix4 (0 : Fin 1) o p q)
  -- the closing step
  rw [Pipeline.accAt_succ]
  refine (congrFun (last_step m c (8 * r.val + (6 + 1)) h (by omega) _) (ix4 u o p q)).trans ?_
  refine (zero_sub _ u o p q).trans ?_
  rw [add_tile, hsix]
  -- the eight addends are the eight tiles of batch r
  have hadd : ∀ k : Fin 8, addend m c (8 * r.val + k.val) (ix4 (0 : Fin 1) o p q)
      = ∑ j : Fin 16, term (img m c) r ⟨16 * k.val + j.val, by omega⟩ p q (nbrRow o) (nbrCol o) (nbrRow_le o) (nbrCol_le o) := by
    intro k
    have hk : 8 * r.val + k.val < cfg0.N := by omega
    show (if h : 8 * r.val + k.val < cfg0.N then tileAt (tileOf m c ⟨8 * r.val + k.val, h⟩) (nbrRow o) (nbrCol o) p q (nbrRow_le _) (nbrCol_le _) else 0) = _
    rw [dif_pos hk]
    exact tile_sum m c r k hk _ _ p q _ _
  have hlast : tileAt (iblk m c 0 ⟨8 * r.val + (6 + 1), h⟩) (nbrRow o) (nbrCol o) p q (nbrRow_le o) (nbrCol_le o)
      = addend m c (8 * r.val + 7) (ix4 (0 : Fin 1) o p q) := by
    show _ = (if h' : 8 * r.val + 7 < cfg0.N then tileAt (tileOf m c ⟨8 * r.val + 7, h'⟩) (nbrRow o) (nbrCol o) p q (nbrRow_le _) (nbrCol_le _) else 0)
    rw [dif_pos h]
  rw [hlast, add_assoc, ← Finset.sum_range_succ (fun s => addend m c (8 * r.val + s) (ix4 (0 : Fin 1) o p q)) 7,
    Finset.sum_range (fun s => addend m c (8 * r.val + s) (ix4 (0 : Fin 1) o p q))]
  simp only [hadd]
  exact zero_sub_tiles (img m c) r o p q

/-- The array after the run is the result array. -/
theorem kernel_eq_pool (c : Dev nD) : G1 m c = pool (img m c) := by
  funext i
  obtain ⟨b, o, p, q, rfl⟩ : ∃ (b o : Fin 8) (p q : Fin 222), i = ix4 b o p q := ⟨i 0, i 1, i 2, i 3, eq_ix4 i⟩
  have hN : cfg0.N = 64 := N_0
  have hrun : run1Of (ix4 b o p q) = b.val := by
    show 1 * (b.val / 1 - 0) + 1 * (o.val / 8 - 0) + 1 * (p.val / 222 - 0) + 1 * (q.val / 222 - 0) = b.val
    omega
  have hloc : loc1Of (ix4 b o p q) = ix4 (0 : Fin 1) o p q := by
    funext a; apply Fin.ext
    match a with
    | ⟨0, _⟩ => show b.val % 1 = 0; omega
    | ⟨1, _⟩ => show o.val % 8 = o.val; omega
    | ⟨2, _⟩ => show p.val % 222 = p.val; omega
    | ⟨3, _⟩ => show q.val % 222 = q.val; omega
  have hlt : 8 * run1Of (ix4 b o p q) + 7 < cfg0.N := by rw [hrun]; omega
  unfold G1
  rw [dif_pos hlt, hloc]
  have e : ∀ (n n' : ℕ) (hn : n + 7 < cfg0.N) (hn' : n' + 7 < cfg0.N), n = n' →
      Pipeline.accAt (reset1 m c) (step1 m c) n 7 hn = Pipeline.accAt (reset1 m c) (step1 m c) n' 7 hn' := by
    intro n n' hn hn' hnn; subst hnn; rfl
  rw [e _ (8 * b.val) hlt (by omega) (by rw [hrun])]
  exact fold_apply m c b _ 0 o p q

end Cert.KernelIdeal.PoolValue

end
-- ==== Proof.lean ====
/-
  Ternary-window pooling: for every batch `b`, neighbour `o` of the 3×3 window and pixel `(p, q)`,

      out(b, o, p, q) = −( Σ_{c < 128} | x(b, c, 1 + p, 1 + q) − x(b, c, nbrRow o + p, nbrCol o + q) | ).

  The kernel walks a grid of 8 batches × 8 channel tiles: the output block of a batch stays in place over its eight
  tiles, is zeroed at the first, takes each tile's eight sums of sixteen channels, and is replaced by zero minus itself
  at the last. The reference sums all 128 channels at once for each neighbour, stacks the eight sums and negates.
  On the extended reals a sum may be regrouped freely and `0 − a = −a`, so both arrays are `Cert.Pool.pool` of the
  argument; nothing is asked of the inputs beyond the arrays agreeing.

  The kernel's array after its run as the fold of its runs of eight points, and the reference's run as a composed term,
  are imported; shown here: that fold is `pool` (Proof/Tile.lean, Proof/KernelSide.lean), the reference's term is `pool`
  (Proof/RefSide.lean), over the law of sums in Proof/Neighbours.lean.
-/
import proofs.«131874_j63986422776070_1_alg».proof.Defs
import proofs.«131874_j63986422776070_1_alg».proof.Proof.Gen.Kernel.Frame
import proofs.«131874_j63986422776070_1_alg».proof.Proof.Gen.KernelIdeal.Value
import proofs.«131874_j63986422776070_1_alg».proof.Proof.Gen.Pre_finite_inputs
import proofs.«131874_j63986422776070_1_alg».proof.Proof.Gen.ReferenceIdeal.Run
import proofs.«131874_j63986422776070_1_alg».proof.Proof.RefSide
import proofs.«131874_j63986422776070_1_alg».proof.Proof.KernelSide
import Idealize.ShloMosaic.Adequacy
import Idealize.ShloMosaic.Init

noncomputable section

namespace Cert.Proof

open Idealize.ShloMosaic Idealize.SL.Sem

/-- The idealized kernel runs and keeps its argument: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and keeps its argument: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the image batch both programs end with `pool` of it. -/
theorem algebraic_KernelIdeal_ReferenceIdeal : algebraic_KernelIdeal_ReferenceIdeal := by
  intro m ρ m' ρ' _ hagree
  refine ⟨fun c => Cert.Pool.pool (Cert.KernelIdeal.PoolValue.img m c), ?_, ?_⟩
  · exact (θ_run Cert.KernelIdeal.defs _ _).mono
      (fun r h c => ⟨(h c).1.trans (Cert.KernelIdeal.PoolValue.kernel_eq_pool m c), (h c).2⟩)
      (Cert.KernelIdeal.Value.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v42_eq, Cert.ReferenceIdeal.PoolValue.ref_eq_pool, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
